-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000x16 : Shape := ⟨2, ![1600000, 16]⟩
abbrev S2x1600000 : Shape := ⟨2, ![2, 1600000]⟩
abbrev S100000 : Shape := ⟨1, ![100000]⟩
abbrev S512x512 : Shape := ⟨2, ![512, 512]⟩
abbrev S512 : Shape := ⟨1, ![512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg6 : FVec F S512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S100000x512 .f32) (main_arg1 : FVec F S1600000x16 .f32) (main_arg2 : IVec S2x1600000 32) (main_arg3 : IVec S100000 32) (main_arg4 : FVec F S512x512 .f32) (main_arg5 : FVec F S512 .f32) (main_arg6 : FVec F S512 .f32) (main_arg7 : FVec F S512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_v13 main_v16
-- ==== Kernel.lean ====
abbrev S100000x512 : Shape := ⟨2, ![100000, 512]⟩
abbrev S1600000x16 : Shape := ⟨2, ![1600000, 16]⟩
abbrev S2x1600000 : Shape := ⟨2, ![2, 1600000]⟩
abbrev S100000 : Shape := ⟨1, ![100000]⟩
abbrev S512x512 : Shape := ⟨2, ![512, 512]⟩
abbrev S512 : Shape := ⟨1, ![512]⟩
abbrev S1x512 : Shape := ⟨2, ![1, 512]⟩
abbrev S4000x512 : Shape := ⟨2, ![4000, 512]⟩
abbrev S4000 : Shape := ⟨1, ![4000]⟩
abbrev S4000x1 : Shape := ⟨2, ![4000, 1]⟩

abbrev nBuf : Space → Nat
  | .hbm => 14
  | .vmem => 8
  | .smem => 0
  | _ => 0

abbrev bufTy : (tb : Table) → Fin (tcTables nBuf tb) → BufTy
  | .hbm, ⟨0, _⟩ => ⟨S100000x512, .f32⟩
  | .hbm, ⟨1, _⟩ => ⟨S1600000x16, .f32⟩
  | .hbm, ⟨2, _⟩ => ⟨S2x1600000, .i32⟩
  | .hbm, ⟨3, _⟩ => ⟨S100000, .i32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x512, .f32⟩
  | .hbm, ⟨9, _⟩ => ⟨S512x512, .bf16⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S100000x512, .f32⟩
  | .local _ .vmem, ⟨0, _⟩ => ⟨S4000x512, .f32⟩
  | .local _ .vmem, ⟨1, _⟩ => ⟨S4000x512, .f32⟩
  | .local _ .vmem, ⟨2, _⟩ => ⟨S512x512, .bf16⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S4000x512, .f32⟩
  | .local _ .vmem, ⟨7, _⟩ => ⟨S4000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S512x512_S512x512_1_0 : S512x512.Transposes [1, 0] S512x512
  bitsLt_bf16_f32 : FTy.bits .bf16 < FTy.bits .f32
  shapeCasts_S512_S1x512 : S512.ShapeCasts S1x512
  inb_S4000x512_S4000x512_0_0 : ∀ a, (![0, 0] : Fin 2 → Nat) a + S4000x512.size a ≤ S4000x512.size a
  h_S4000x512 : 0 < S4000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4000x512 : S1x512.Broadcasts S4000x512
  reduces_S4000x512_S4000 : S4000x512.Reduces [1] S4000
  shapeCasts_S4000_S4000x1 : S4000.ShapeCasts S4000x1
  broadcasts_S4000x1_S4000x512 : S4000x1.Broadcasts S4000x512
  dot_S4000x512_S512x512_S4000x512_1_0_0_1_n_n_wf : DotDims.WF S4000x512 S512x512 S4000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x512.size a ≤ S100000x512.size a
  hwx0_5 : ∀ i : grid0.Coords, EltTy.bits .f32 = 32 ∨ (Rect.block (s := S100000x512) S4000x512.size (cc0_transform_5 i) (hinb0_5 i)).WholeWords (EltTy.packing .f32)

variable [Facts₀]

def dot_S4000x512_S512x512_S4000x512_1_0_0_1_n_n : DotDims S4000x512 S512x512 S4000x512 where
  lhsContracting := [1]
  rhsContracting := [0]
  lhsNonContracting := [0]
  rhsNonContracting := [1]
  lhsBatch := []
  rhsBatch := []
  wf := dot_S4000x512_S512x512_S4000x512_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x512 : Shape := ⟨2, ![100000, 512]⟩
abbrev S1600000x16 : Shape := ⟨2, ![1600000, 16]⟩
abbrev S2x1600000 : Shape := ⟨2, ![2, 1600000]⟩
abbrev S100000 : Shape := ⟨1, ![100000]⟩
abbrev S512x512 : Shape := ⟨2, ![512, 512]⟩
abbrev S512 : Shape := ⟨1, ![512]⟩
abbrev S1x512 : Shape := ⟨2, ![1, 512]⟩
abbrev S_ : Shape := ⟨0, ![]⟩
abbrev S100000x1 : Shape := ⟨2, ![100000, 1]⟩

abbrev nBuf : Space → Nat
  | .hbm => 48
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000x16, .f32⟩
  | .hbm, ⟨2, _⟩ => ⟨S2x1600000, .i32⟩
  | .hbm, ⟨3, _⟩ => ⟨S100000, .i32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S100000x512, .f32⟩
  | .hbm, ⟨9, _⟩ => ⟨S1x512, .f32⟩
  | .hbm, ⟨10, _⟩ => ⟨S100000x512, .f32⟩
  | .hbm, ⟨11, _⟩ => ⟨S100000x512, .f32⟩
  | .hbm, ⟨12, _⟩ => ⟨S_, .f32⟩
  | .hbm, ⟨13, _⟩ => ⟨S100000, .f32⟩
  | .hbm, ⟨14, _⟩ => ⟨S100000x1, .f32⟩
  | .hbm, ⟨15, _⟩ => ⟨S_, .f32⟩
  | .hbm, ⟨16, _⟩ => ⟨S100000x1, .f32⟩
  | .hbm, ⟨17, _⟩ => ⟨S100000x1, .f32⟩
  | .hbm, ⟨18, _⟩ => ⟨S100000x512, .f32⟩
  | .hbm, ⟨19, _⟩ => ⟨S100000x512, .f32⟩
  | .hbm, ⟨20, _⟩ => ⟨S100000x512, .f32⟩
  | .hbm, ⟨21, _⟩ => ⟨S_, .f32⟩
  | .hbm, ⟨22, _⟩ => ⟨S100000, .f32⟩
  | .hbm, ⟨23, _⟩ => ⟨S100000x1, .f32⟩
  | .hbm, ⟨24, _⟩ => ⟨S_, .f32⟩
  | .hbm, ⟨25, _⟩ => ⟨S100000x1, .f32⟩
  | .hbm, ⟨26, _⟩ => ⟨S100000x1, .f32⟩
  | .hbm, ⟨27, _⟩ => ⟨S100000x512, .f32⟩
  | .hbm, ⟨28, _⟩ => ⟨S100000x512, .f32⟩
  | .hbm, ⟨29, _⟩ => ⟨S_, .f32⟩
  | .hbm, ⟨30, _⟩ => ⟨S100000x1, .f32⟩
  | .hbm, ⟨31, _⟩ => ⟨S100000x1, .f32⟩
  | .hbm, ⟨32, _⟩ => ⟨S100000x1, .f32⟩
  | .hbm, ⟨33, _⟩ => ⟨S100000x512, .f32⟩
  | .hbm, ⟨34, _⟩ => ⟨S100000x512, .f32⟩
  | .hbm, ⟨35, _⟩ => ⟨S1x512, .f32⟩
  | .hbm, ⟨36, _⟩ => ⟨S100000x512, .f32⟩
  | .hbm, ⟨37, _⟩ => ⟨S100000x512, .f32⟩
  | .hbm, ⟨38, _⟩ => ⟨S1x512, .f32⟩
  | .hbm, ⟨39, _⟩ => ⟨S100000x512, .f32⟩
  | .hbm, ⟨40, _⟩ => ⟨S100000x512, .f32⟩
  | .hbm, ⟨41, _⟩ => ⟨S_, .f32⟩
  | .hbm, ⟨42, _⟩ => ⟨S100000x512, .f32⟩
  | .hbm, ⟨43, _⟩ => ⟨S100000x512, .i1⟩
  | .hbm, ⟨44, _⟩ => ⟨S_, .f32⟩
  | .hbm, ⟨45, _⟩ => ⟨S100000x512, .f32⟩
  | .hbm, ⟨46, _⟩ => ⟨S100000x512, .f32⟩
  | .hbm, ⟨47, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  reducesTo_S100000x512_S100000_d1 : S100000x512.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  bcast_S_S100000x512 : S_.BroadcastsInDim S100000x512 (![] : Fin 0 → Fin S100000x512.rank)
  dot_S100000x512_S512x512_S100000x512_1_1_0_0_n_n_wf : DotDims.WF S100000x512 S512x512 S100000x512 [1] [1] [0] [0] [] []

variable [Facts₀]

def dot_S100000x512_S512x512_S100000x512_1_1_0_0_n_n : DotDims S100000x512 S512x512 S100000x512 where
  lhsContracting := [1]
  rhsContracting := [1]
  lhsNonContracting := [0]
  rhsNonContracting := [0]
  lhsBatch := []
  rhsBatch := []
  wf := dot_S100000x512_S512x512_S100000x512_1_1_0_0_n_n_wf

class Facts : Prop extends Facts₀ where

variable [Facts]
-- ==== Proof.LibTile.lean ====
/-
  Operations on a rank-2 tile read at an index given by coordinates: the two column forms of a
  keep-dimensions reduction (a vector as a column, a column spread along the rows), a sum along the rows
  or the columns as a sum over one coordinate, the column of row norms, and a matrix product with one
  contracted axis as a sum over that axis.
-/
import Idealize.ShloMosaic.Lib.ValueIdx
import Idealize.ShloMosaic.Lib.ValueLayout
import Idealize.ShloMosaic.Lib.Pipeline.Value
import Idealize.ShloMosaic.PureOps.Ideal.Laws

namespace Cert.Tile

open Idealize.ShloMosaic Idealize.ShloMosaic.ValueIdx

variable {α : Type}

/-! ## Layout -/

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis -/

/-- The entries of each row of an [a, b] tile summed: at p, the sum over the b columns. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p)
      = ∑ k : Fin b, src (ix2 p k) := by
  refine (Ideal.multiReduction_add_single src 0x00000000#32 h hφ hacc (ix1 p)).trans ?_
  exact Finset.sum_congr rfl fun k _ => congrArg src (funext fun ax => Fin.ext (by
    match ax with
    | ⟨0, _⟩ => rfl
    | ⟨1, _⟩ => rfl))

/-- The entries of each column of an [a, b] tile summed: at q, the sum over the a rows. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (q : Fin b) :
    multiReduction (F := Ideal) .add [0] ⟨1, ![b]⟩ src 0x00000000#32 h hφ hacc (ix1 q)
      = ∑ k : Fin a, src (ix2 k q) := by
  refine (Ideal.multiReduction_add_single src 0x00000000#32 h hφ hacc (ix1 q)).trans ?_
  exact Finset.sum_congr rfl fun k _ => congrArg src (funext fun ax => Fin.ext (by
    match ax with
    | ⟨0, _⟩ => rfl
    | ⟨1, _⟩ => rfl))

/-- The row sums kept as a column: at (p, u), the sum over the b columns of row p. -/
theorem rowSumCol_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) :=
  (shapeCast_a_a1_apply _ hc p u).trans (rowSum_apply src h hφ hacc p)

/-- A square root read at an index. -/
theorem sqrt_apply {s : Shape} {φ : FTy} (v : FVec Ideal s φ) (i : s.Idx) : sqrt v i = Ideal.sqrt (v i) := rfl

/-- The column of Euclidean row norms spread along rows of length c: at (p, x), the square root of
    the sum of the squares of row p. -/
theorem normCol_apply {a b c : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, c]⟩) (p : Fin a) (x : Fin c) :
    broadcastTo ⟨2, ![a, c]⟩
        (sqrt (shapeCast ⟨2, ![a, 1]⟩ (multiReduction (F := Ideal) .add [1] ⟨1, ![a]⟩ (mulf X X) 0x00000000#32 h hφ hacc) hc))
        hb (ix2 p x)
      = Ideal.sqrt (∑ k : Fin b, X (ix2 p k) * X (ix2 p k)) :=
  (broadcastTo_a1_ab_apply _ hb p x).trans
    (congrArg Ideal.sqrt (rowSumCol_apply (mulf X X) h hφ hacc hc p 0))

/-! ## A matrix product with one contracted axis -/

theorem lhs_plain_0 {M K N : ℕ} (j : (⟨2, ![M, N]⟩ : Shape).Idx) (q : (DotDims.plain M K N).contr.Idx) :
    ((DotDims.plain M K N).lhsIdx j q 0).val = (j 0).val := rfl
theorem lhs_plain_1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem rhs_plain_0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem rhs_plain_1 {M K N : ℕ} (j : (⟨2, ![M, N]⟩ : Shape).Idx) (q : (DotDims.plain M K N).contr.Idx) :
    ((DotDims.plain M K N).rhsIdx j q 1).val = (j 1).val := rfl

/-- An [M, K] by [K, N] product into the zero accumulator reads, at (p, q), the sum over the K
    contracted coordinates of the left operand at (p, x) times the right at (x, q). -/
theorem matmul_plain_apply {M K N : ℕ} (prec : Option ContractPrecision)
    (lhs : FVec Ideal ⟨2, ![M, K]⟩ .f32) (rhs : FVec Ideal ⟨2, ![K, N]⟩ .f32) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_plain_0 _ _
      | ⟨1, _⟩ => exact (lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_plain_0 _ _).trans hk
      | ⟨1, _⟩ => exact rhs_plain_1 _ _)
  rw [el, er]

/-! ## The patterns of one layer -/

/-- A tile with each row divided by its Euclidean norm: at (p, x), the entry over the square root of
    the sum of the squares of row p. -/
theorem normalize_apply {a b : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩) (p : Fin a) (x : Fin b) :
    divf X (broadcastTo ⟨2, ![a, b]⟩
        (sqrt (shapeCast ⟨2, ![a, 1]⟩ (multiReduction (F := Ideal) .add [1] ⟨1, ![a]⟩ (mulf X X) 0x00000000#32 h hφ hacc) hc))
        hb) (ix2 p x)
      = Ideal.div (X (ix2 p x)) (Ideal.sqrt (∑ k : Fin b, X (ix2 p k) * X (ix2 p k))) :=
  congrArg (Ideal.div (X (ix2 p x))) (normCol_apply X h hφ hacc hc hb p x)

/-- A dense layer with a rectifier and a multiplicative mask row, the weights given transposed:
    at (p, q), max (Σₓ X p x · WT x q + b q) 0 · mask q. -/
theorem dense_apply {M K N : ℕ} (prec : Option ContractPrecision)
    (X : FVec Ideal ⟨2, ![M, K]⟩ .f32) (WT : FVec Ideal ⟨2, ![K, N]⟩ .f32) (b mk : FVec Ideal ⟨2, ![1, N]⟩ .f32)
    (hw : (⟨2, ![K, N]⟩ : Shape).ShapeCasts ⟨2, ![K, N]⟩)
    (hb hm : (⟨2, ![1, N]⟩ : Shape).ShapeCasts ⟨2, ![1, N]⟩)
    (hbb hmb : (⟨2, ![1, N]⟩ : Shape).Broadcasts ⟨2, ![M, N]⟩) (p : Fin M) (q : Fin N) :
    mulf (maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)))
        (broadcastTo ⟨2, ![M, N]⟩ (shapeCast ⟨2, ![1, N]⟩ mk hm) hmb) (ix2 p q)
      = max ((∑ x : Fin K, X (ix2 p x) * WT (ix2 x q)) + b (ix2 (0 : Fin 1) q)) 0 * mk (ix2 (0 : Fin 1) q) :=
  congrArg₂ (· * ·)
    (congrArg₂ max
      (congrArg₂ (· + ·)
        ((matmul_plain_apply prec X _ p q).trans
          (Finset.sum_congr rfl fun x _ => congrArg (X (ix2 p x) * ·) (congrFun (shapeCast_self WT hw) (ix2 x q))))
        ((broadcastTo_1b_ab_apply _ hbb p q).trans (congrFun (shapeCast_self b hb) (ix2 (0 : Fin 1) q))))
      Ideal.ofBits_zero_f32)
    ((broadcastTo_1b_ab_apply _ hmb p q).trans (congrFun (shapeCast_self mk hm) (ix2 (0 : Fin 1) q)))

/-- The same without a mask: at (p, q), max (Σₓ X p x · WT x q + b q) 0. -/
theorem denseOut_apply {M K N : ℕ} (prec : Option ContractPrecision)
    (X : FVec Ideal ⟨2, ![M, K]⟩ .f32) (WT : FVec Ideal ⟨2, ![K, N]⟩ .f32) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)) (ix2 p q)
      = max ((∑ x : Fin K, X (ix2 p x) * WT (ix2 x q)) + b (ix2 (0 : Fin 1) q)) 0 :=
  congrArg₂ max
    (congrArg₂ (· + ·)
      ((matmul_plain_apply prec X _ p q).trans
        (Finset.sum_congr rfl fun x _ => congrArg (X (ix2 p x) * ·) (congrFun (shapeCast_self WT hw) (ix2 x q))))
      ((broadcastTo_1b_ab_apply _ hbb p q).trans (congrFun (shapeCast_self b hb) (ix2 (0 : Fin 1) q))))
    Ideal.ofBits_zero_f32

/-- The sum of the squares of every entry of a tile, kept as a [1, 1] value. -/
theorem totalSq_apply {a b : ℕ} (Y : FVec Ideal ⟨2, ![a, b]⟩ .f32)
    (h1 : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (h0 : Shape.Reduces ⟨2, ![a, 1]⟩ [0] ⟨1, ![1]⟩) (hφ' : FKind.Formats .f32)
    (hacc' : (0x00000000#32 : BitVec 32) = 0x00000000#32)
    (hc1 : (⟨1, ![1]⟩ : Shape).ShapeCasts ⟨2, ![1, 1]⟩) (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ (mulf Y Y) 0x00000000#32 h1 hφ hacc) hc)
          0x00000000#32 h0 hφ' hacc') hc1 (ix2 u w)
      = ∑ k : Fin a, ∑ j : Fin b, Y (ix2 k j) * Y (ix2 k j) :=
  (shapeCast_a_1a_apply _ hc1 u w).trans
    ((colSum_apply _ h0 hφ' hacc' w).trans
      (Finset.sum_congr rfl fun k _ => rowSumCol_apply (mulf Y Y) h1 hφ hacc hc k w))

/-- A row accumulator plus, at each column q, the sum over the rows k of V k q times the sum of row k
    of U. -/
theorem sdAcc_apply {a b c : ℕ} (U : FVec Ideal ⟨2, ![a, c]⟩ .f32) (V : FVec Ideal ⟨2, ![a, b]⟩ .f32)
    (acc : FVec Ideal ⟨2, ![1, b]⟩ .f32)
    (h1 : Shape.Reduces ⟨2, ![a, c]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩)
    (h0 : Shape.Reduces ⟨2, ![a, b]⟩ [0] ⟨1, ![b]⟩) (hφ' : FKind.Formats .f32)
    (hacc' : (0x00000000#32 : BitVec 32) = 0x00000000#32)
    (hc1 : (⟨1, ![b]⟩ : Shape).ShapeCasts ⟨2, ![1, b]⟩)
    (hs : (⟨2, ![1, b]⟩ : Shape).ShapeCasts ⟨2, ![1, b]⟩) (u : Fin 1) (q : Fin b) :
    shapeCast ⟨2, ![1, b]⟩
        (addf acc
          (shapeCast ⟨2, ![1, b]⟩
            (multiReduction (F := Ideal) .add [0] ⟨1, ![b]⟩
              (mulf V (broadcastTo ⟨2, ![a, b]⟩
                (shapeCast ⟨2, ![a, 1]⟩ (multiReduction (F := Ideal) .add [1] ⟨1, ![a]⟩ U 0x00000000#32 h1 hφ hacc) hc) hb))
              0x00000000#32 h0 hφ' hacc') hc1)) hs (ix2 u q)
      = acc (ix2 u q) + ∑ k : Fin a, V (ix2 k q) * ∑ x : Fin c, U (ix2 k x) :=
  (congrFun (shapeCast_self _ hs) (ix2 u q)).trans
    (congrArg (acc (ix2 u q) + ·)
      ((shapeCast_a_1a_apply _ hc1 u q).trans
        ((colSum_apply _ h0 hφ' hacc' q).trans
          (Finset.sum_congr rfl fun k _ => congrArg (V (ix2 k q) * ·)
            ((broadcastTo_a1_ab_apply _ hb k q).trans (rowSumCol_apply U h1 hφ hacc hc k 0))))))

end Cert.Tile
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.RowNorm.lean ====
/-
  A dense layer, a normalisation of each row and a leaky rectifier, as ONE function of the argument arrays over
  the extended reals.  For a row `x` of 512 inputs, weights `W` (output by input), a bias `b`, a gain `g` and
  a shift `s`:
    a o   = Σₖ x k · W o k + b o                       the row of pre-activations
    μ     = (Σₒ a o) / 512                             its mean
    σ²    = (Σₒ (a o − μ)²) / 512                      its variance about that mean
    y o   = (a o − μ) · rsqrt (σ² + ε) · g o + s o     the normalised row, scaled and shifted
    out o = y o if y o ≥ 0, else 0.2 · y o
  The divisor 512, ε and the slope 0.2 are the float words both programs print; they are kept as words, never
  evaluated, since the same word reads the same on both sides.  Each row is a function of that row of the
  input alone, which is why cutting the rows into tiles changes nothing.
-/
import Idealize.ShloMosaic.Lib.ValueIdx
import Idealize.ShloMosaic.PureOps.Ideal.Laws

noncomputable section

namespace Cert.RowNorm

open Idealize.ShloMosaic Idealize.ShloMosaic.ValueIdx

/-- The row length 512 as the float word both programs divide by. -/
abbrev width : EReal := Ideal.ofBits .f32 0x44000000#32
/-- The word added to the variance before the reciprocal square root. -/
abbrev eps : EReal := Ideal.ofBits .f32 0x3727C5AC#32
/-- The slope of the rectifier on the negative side. -/
abbrev slope : EReal := Ideal.ofBits .f32 0x3E4CCCCD#32
/-- The threshold of the rectifier. -/
abbrev zero : EReal := Ideal.ofBits .f32 0x00000000#32

/-- The mean of a row. -/
def mean (a : Fin 512 → EReal) : EReal := Ideal.div (∑ k : Fin 512, a k) width

/-- A row less its mean. -/
def centred (a : Fin 512 → EReal) (o : Fin 512) : EReal := a o - mean a

/-- The mean of the squares of the centred row. -/
def variance (a : Fin 512 → EReal) : EReal := Ideal.div (∑ k : Fin 512, centred a k * centred a k) width

/-- The centred row over its standard deviation, scaled by the gain and shifted. -/
def affine (a g s : Fin 512 → EReal) (o : Fin 512) : EReal :=
  centred a o * Ideal.rsqrt (variance a + eps) * g o + s o

/-- The leaky rectifier: the value where it is at least zero, the slope times it elsewhere. -/
def leaky (y : EReal) : EReal :=
  Scalar.select (FloatOps.cmpf (F := Ideal) (φ := .f32) .oge y zero) y (slope * y)

/-- The dense layer's row: the input row against each output's weights, plus the bias. -/
def preact (x : Fin 512 → EReal) (W : Fin 512 → Fin 512 → EReal) (b : Fin 512 → EReal) (o : Fin 512) : EReal :=
  (∑ k : Fin 512, x k * W o k) + b o

/-- One output row from one input row. -/
def row (x : Fin 512 → EReal) (W : Fin 512 → Fin 512 → EReal) (b g s : Fin 512 → EReal) (o : Fin 512) : EReal :=
  leaky (affine (preact x W b) g s o)

/-- The whole result: entry (n, o) is output o of the row function at input row n. -/
def G (x : FVec Ideal ⟨2, ![100000, 512]⟩ .f32) (W : FVec Ideal ⟨2, ![512, 512]⟩ .f32)
    (b g s : FVec Ideal ⟨1, ![512]⟩ .f32) : FVec Ideal ⟨2, ![100000, 512]⟩ .f32 :=
  fun i => row (fun k => x (ix2 (i 0) k)) (fun o k => W (ix2 o k)) (fun o => b (ix1 o)) (fun o => g (ix1 o))
    (fun o => s (ix1 o)) (i 1)

/-- The result at an index whose coordinates are row n and output o. -/
theorem G_apply (x : FVec Ideal ⟨2, ![100000, 512]⟩ .f32) (W : FVec Ideal ⟨2, ![512, 512]⟩ .f32)
    (b g s : FVec Ideal ⟨1, ![512]⟩ .f32) (i : (⟨2, ![100000, 512]⟩ : Shape).Idx) (n : Fin 100000) (o : Fin 512)
    (h0 : (i 0).val = n.val) (h1 : (i 1).val = o.val) :
    G x W b g s i = row (fun k => x (ix2 n k)) (fun o k => W (ix2 o k)) (fun o => b (ix1 o)) (fun o => g (ix1 o))
      (fun o => s (ix1 o)) o := by
  have e0 : i 0 = n := Fin.ext h0
  have e1 : i 1 = o := Fin.ext h1
  unfold G
  rw [e0, e1]

end Cert.RowNorm

end
-- ==== Proof.TileValue.lean ====
/-
  What the kernel body stores for one tile of 4000 rows, read at row p and output o: the row function of
  RowNorm at the tile's row p.  The body multiplies the tile by the transposed weights into a zero accumulator
  (the narrower float format of the two factors is a change of format, the identity on the extended reals), adds
  the bias row, takes the two row sums along the lanes kept as columns, and finishes pointwise.
-/
import proofs.«142499_j5342939316926_1_alg».proof.Proof.Gen.KernelIdeal.Skeleton
import proofs.«142499_j5342939316926_1_alg».proof.Proof.LibTile
import proofs.«142499_j5342939316926_1_alg».proof.Proof.LibPlainProduct
import proofs.«142499_j5342939316926_1_alg».proof.Proof.RowNorm
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx Cert.RowNorm

/-- The printed contraction is the plain one: rows of the left operand against columns of the right. -/
theorem dot_plain : dot_S4000x512_S512x512_S4000x512_1_0_0_1_n_n = DotDims.plain 4000 512 512 := rfl

/-- A reciprocal square root read at an index. -/
theorem rsqrt_apply {s : Shape} {φ : FTy} (v : FVec Ideal s φ) (i : s.Idx) : rsqrt v i = Ideal.rsqrt (v i) := rfl

/-- The tile of pre-activations: entry (p, o) is row p of the input tile against column o of the transposed
    weights, plus the bias at o.  With the weights stored input by output, column o is output o's weights. -/
theorem preact_apply (x0 : Vec Ideal S4000x512 .f32) (x1 : Vec Ideal S512x512 .bf16) (x5 : Vec Ideal S1x512 .f32)
    (p : Fin 4000) (o : Fin 512) :
    addf (F := Ideal) (matmul (F := Ideal) dot_S4000x512_S512x512_S4000x512_1_0_0_1_n_n none
            (truncf .bf16 x0 bitsLt_bf16_f32 : FVec Ideal S4000x512 .bf16)
            (shapeCast S512x512 x1 shapeCasts_S512x512_S512x512 : FVec Ideal S512x512 .bf16)
            (constant (F := Ideal) S4000x512 .f32 0x00000000#32))
         (broadcastTo S4000x512 (shapeCast S1x512 x5 shapeCasts_S1x512_S1x512 : FVec Ideal S1x512 .f32)
            broadcasts_S1x512_S4000x512) (ix2 p o)
      = preact (fun k => x0 (ix2 p k)) (fun o k => x1 (ix2 k o)) (fun o => x5 (ix2 (0 : Fin 1) o)) o := by
  unfold preact
  refine congrArg₂ (· + ·) ?_ ?_
  · rw [dot_plain]
    refine (Cert.PlainProduct.matmul_zero_apply none _ _ p o).trans (Finset.sum_congr rfl fun k _ => ?_)
    exact congrArg₂ (· * ·) (truncf_apply x0 bitsLt_bf16_f32 (ix2 p k)) (congrFun (shapeCast_self x1 shapeCasts_S512x512_S512x512) (ix2 k o))
  · exact (broadcastTo_1b_ab_apply _ broadcasts_S1x512_S4000x512 p o).trans
      (congrFun (shapeCast_self x5 shapeCasts_S1x512_S1x512) (ix2 (0 : Fin 1) o))

/-- A sum along the lanes of a tile, kept as a column: at (p, u), the sum of row p. -/
theorem lane_sum_apply (B : FVec Ideal S4000x512 .f32) (p : Fin 4000) (u : Fin 1) :
    shapeCast S4000x1 (multiReduction (F := Ideal) .add [1] S4000 B 0x00000000#32 reduces_S4000x512_S4000 (.inl rfl) rfl)
      shapeCasts_S4000_S4000x1 (ix2 p u) = ∑ k : Fin 512, B (ix2 p k) :=
  Cert.Tile.rowSumCol_apply B _ _ _ _ p u

/-- THE TILE: what the body stores at (p, o) is the row function at the tile's row p — the input tile's row p,
    the transposed weights' columns, and the bias, gain and shift rows.  Every step after the pre-activations
    reads row p only: the two lane sums run over that row, and the column of means and the column of
    reciprocal deviations are spread back along it. -/
theorem pay_apply (x0 : Vec Ideal S4000x512 .f32) (x1 : Vec Ideal S512x512 .bf16) (x5 x25 x29 : Vec Ideal S1x512 .f32)
    (p : Fin 4000) (o : Fin 512) :
    k0_pay1 (F := Ideal) x0 x1 x5 x25 x29 (ix2 p o)
      = row (fun k => x0 (ix2 p k)) (fun o k => x1 (ix2 k o)) (fun o => x5 (ix2 (0 : Fin 1) o))
          (fun o => x25 (ix2 (0 : Fin 1) o)) (fun o => x29 (ix2 (0 : Fin 1) o)) o := by
  have hA := preact_apply x0 x1 x5 p
  unfold k0_pay1
  dsimp only
  generalize (addf (F := Ideal) (matmul (F := Ideal) dot_S4000x512_S512x512_S4000x512_1_0_0_1_n_n none
            (truncf .bf16 x0 bitsLt_bf16_f32 : FVec Ideal S4000x512 .bf16)
            (shapeCast S512x512 x1 shapeCasts_S512x512_S512x512 : FVec Ideal S512x512 .bf16)
            (constant (F := Ideal) S4000x512 .f32 0x00000000#32))
         (broadcastTo S4000x512 (shapeCast S1x512 x5 shapeCasts_S1x512_S1x512 : FVec Ideal S1x512 .f32)
            broadcasts_S1x512_S4000x512)) = A at hA ⊢
  simp only [select_apply, cmpf_apply, mulf_apply, addf_apply, subf_apply, divf_apply, broadcast_apply, rsqrt_apply,
    Cert.Tile.broadcastTo_a1_ab_apply, broadcastTo_1b_ab_apply, shapeCast_self]
  rw [lane_sum_apply _ p 0, lane_sum_apply _ p 0]
  simp only [select_apply, cmpf_apply, mulf_apply, addf_apply, subf_apply, divf_apply, broadcast_apply, rsqrt_apply,
    Cert.Tile.broadcastTo_a1_ab_apply, broadcastTo_1b_ab_apply, shapeCast_self]
  rw [lane_sum_apply A p 0]
  simp only [hA]
  unfold row leaky affine variance centred mean
  rfl

end Cert.KernelIdeal.Tile

end
-- ==== Proof.BlockValue.lean ====
/-
  From tiles to the whole result.  The grid has 25 points; point t stages rows 4000·t … 4000·t + 3999 of the
  input, the whole of the transposed weights and of the bias, gain and shift rows, and writes back the same
  rows of the result.  The transposed weights are the weights with their two coordinates exchanged (made on
  the host before the call, with a change of float format that is the identity here), and each of the three
  rows is its vector with a unit axis in front.  So what point t writes back at in-tile row p is the row
  function at row 4000·t + p of the input: tile t of `G`.  The 25 tiles cover every row, hence the array
  after the run is `G`.
-/
import proofs.«142499_j5342939316926_1_alg».proof.Proof.Gen.KernelIdeal.Value
import proofs.«142499_j5342939316926_1_alg».proof.Proof.TileValue
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Blocks

open Cert.KernelIdeal Cert.KernelIdeal.Gen Cert.KernelIdeal.Value Idealize.ShloMosaic Idealize.ShloMosaic.TcCoe
open Idealize.SL.Sem Idealize.ShloMosaic.ValueIdx Cert.RowNorm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The transposed weights as the call finds them: the weights transposed, in the narrower format. -/
theorem weights_eq (c : Dev nD) :
    (V m c main_v1 : S512x512.Idx → Elt Ideal .bf16)
      = truncf .bf16 (transpose S512x512 [1, 0] (m ((c : Thread nD τ).loc main_arg4)) transposes_S512x512_S512x512_1_0 : FVec Ideal S512x512 .f32) bitsLt_bf16_f32 := by
  dsimp only [Gen.V, Gen.hostOps0]; after_results

/-- The bias row as the call finds it: the bias with a unit axis in front. -/
theorem bias_eq (c : Dev nD) :
    (V m c main_v2 : S1x512.Idx → Elt Ideal .f32)
      = shapeCast S1x512 (m ((c : Thread nD τ).loc main_arg5)) shapeCasts_S512_S1x512 := by
  dsimp only [Gen.V, Gen.hostOps0]; after_results; rfl

/-- The gain row, likewise. -/
theorem gain_eq (c : Dev nD) :
    (V m c main_v3 : S1x512.Idx → Elt Ideal .f32)
      = shapeCast S1x512 (m ((c : Thread nD τ).loc main_arg6)) shapeCasts_S512_S1x512 := by
  dsimp only [Gen.V, Gen.hostOps0]; after_results; rfl

/-- The shift row, likewise. -/
theorem shift_eq (c : Dev nD) :
    (V m c main_v4 : S1x512.Idx → Elt Ideal .f32)
      = shapeCast S1x512 (m ((c : Thread nD τ).loc main_arg7)) shapeCasts_S512_S1x512 := by
  dsimp only [Gen.V, Gen.hostOps0]; after_results; rfl

/-- The printed index maps, decided over the 25 points: the input and the result move down by one tile of rows
    per point, and the weights and the three rows are fetched whole (block index zero) at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The input tile at point t, at (p, k): the input at row 4000·t + p. -/
theorem xblk_apply (c : Dev nD) (t : Fin cfg0.N) (p : Fin 4000) (k : Fin 512) (n : Fin 100000)
    (hn : n.val = t.val * 4000 + p.val) :
    (iblk m c 0 t : Vec Ideal S4000x512 .f32) (ix2 p k)
      = (m ((c : Thread nD τ).loc main_arg0) : S100000x512.Idx → Elt Ideal .f32) (ix2 n k) := by
  obtain ⟨e0, e1, -⟩ := idx_facts t
  show V m c main_arg0 (((cfg0.win 0).blk t).view.emb (ix2 p k)) = _
  rw [V_main_arg0]
  refine congrArg _ ?_
  funext a; apply Fin.ext
  match a with
  | ⟨0, _⟩ => show win0_0.index t (0 : Fin 2) * 4000 + 1 * p.val = n.val; omega
  | ⟨1, _⟩ => show win0_0.index t (1 : Fin 2) * 512 + 1 * k.val = k.val; omega

/-- The staged weights at any point, at (k, o): the weights at (o, k). -/
theorem wblk_apply (c : Dev nD) (t : Fin cfg0.N) (k o : Fin 512) :
    (iblk m c 1 t : Vec Ideal S512x512 .bf16) (ix2 k o)
      = (m ((c : Thread nD τ).loc main_arg4) : S512x512.Idx → Elt Ideal .f32) (ix2 o k) := by
  obtain ⟨-, -, e0, e1, -⟩ := idx_facts t
  show V m c main_v1 (((cfg0.win 1).blk t).view.emb (ix2 k o)) = _
  have hi : ((cfg0.win 1).blk t).view.emb (ix2 k o) = ix2 k o := by
    funext a; apply Fin.ext
    match a with
    | ⟨0, _⟩ => show win0_1.index t (0 : Fin 2) * 512 + 1 * k.val = k.val; omega
    | ⟨1, _⟩ => show win0_1.index t (1 : Fin 2) * 512 + 1 * o.val = o.val; omega
  rw [hi, weights_eq]
  exact (truncf_apply _ bitsLt_bf16_f32 (ix2 k o)).trans (transpose_ix2_apply _ transposes_S512x512_S512x512_1_0 k o)

/-- The staged bias row at any point, at (0, o): the bias at o. -/
theorem bblk_apply (c : Dev nD) (t : Fin cfg0.N) (o : Fin 512) :
    (iblk m c 2 t : Vec Ideal S1x512 .f32) (ix2 (0 : Fin 1) o)
      = (m ((c : Thread nD τ).loc main_arg5) : S512.Idx → Elt Ideal .f32) (ix1 o) := by
  obtain ⟨-, -, -, -, e0, e1, -⟩ := idx_facts t
  show V m c main_v2 (((cfg0.win 2).blk t).view.emb (ix2 (0 : Fin 1) o)) = _
  have hi : ((cfg0.win 2).blk t).view.emb (ix2 (0 : Fin 1) o) = ix2 (0 : Fin 1) o := by
    funext a; apply Fin.ext
    match a with
    | ⟨0, _⟩ => show win0_2.index t (0 : Fin 2) * 1 + 1 * 0 = 0; omega
    | ⟨1, _⟩ => show win0_2.index t (1 : Fin 2) * 512 + 1 * o.val = o.val; omega
  rw [hi, bias_eq]
  exact shapeCast_a_1a_apply _ shapeCasts_S512_S1x512 (0 : Fin 1) o

/-- The staged gain row, likewise. -/
theorem gblk_apply (c : Dev nD) (t : Fin cfg0.N) (o : Fin 512) :
    (iblk m c 3 t : Vec Ideal S1x512 .f32) (ix2 (0 : Fin 1) o)
      = (m ((c : Thread nD τ).loc main_arg6) : S512.Idx → Elt Ideal .f32) (ix1 o) := by
  obtain ⟨-, -, -, -, -, -, e0, e1, -⟩ := idx_facts t
  show V m c main_v3 (((cfg0.win 3).blk t).view.emb (ix2 (0 : Fin 1) o)) = _
  have hi : ((cfg0.win 3).blk t).view.emb (ix2 (0 : Fin 1) o) = ix2 (0 : Fin 1) o := by
    funext a; apply Fin.ext
    match a with
    | ⟨0, _⟩ => show win0_3.index t (0 : Fin 2) * 1 + 1 * 0 = 0; omega
    | ⟨1, _⟩ => show win0_3.index t (1 : Fin 2) * 512 + 1 * o.val = o.val; omega
  rw [hi, gain_eq]
  exact shapeCast_a_1a_apply _ shapeCasts_S512_S1x512 (0 : Fin 1) o

/-- The staged shift row, likewise. -/
theorem sblk_apply (c : Dev nD) (t : Fin cfg0.N) (o : Fin 512) :
    (iblk m c 4 t : Vec Ideal S1x512 .f32) (ix2 (0 : Fin 1) o)
      = (m ((c : Thread nD τ).loc main_arg7) : S512.Idx → Elt Ideal .f32) (ix1 o) := by
  obtain ⟨-, -, -, -, -, -, -, -, e0, e1, -⟩ := idx_facts t
  show V m c main_v4 (((cfg0.win 4).blk t).view.emb (ix2 (0 : Fin 1) o)) = _
  have hi : ((cfg0.win 4).blk t).view.emb (ix2 (0 : Fin 1) o) = ix2 (0 : Fin 1) o := by
    funext a; apply Fin.ext
    match a with
    | ⟨0, _⟩ => show win0_4.index t (0 : Fin 2) * 1 + 1 * 0 = 0; omega
    | ⟨1, _⟩ => show win0_4.index t (1 : Fin 2) * 512 + 1 * o.val = o.val; omega
  rw [hi, shift_eq]
  exact shapeCast_a_1a_apply _ shapeCasts_S512_S1x512 (0 : Fin 1) o

/-- The row function depends on its five arguments entry by entry. -/
theorem row_congr {x x' : Fin 512 → EReal} {W W' : Fin 512 → Fin 512 → EReal} {b b' g g' s s' : Fin 512 → EReal}
    (hx : ∀ k, x k = x' k) (hW : ∀ o k, W o k = W' o k) (hb : ∀ o, b o = b' o) (hg : ∀ o, g o = g' o)
    (hs : ∀ o, s o = s' o) (o : Fin 512) : row x W b g s o = row x' W' b' g' s' o := by
  rw [funext hx, show W = W' from funext fun o => funext (hW o), funext hb, funext hg, funext hs]

/-- The result as one function of the argument arrays. -/
abbrev Gm (c : Dev nD) : FVec Ideal ⟨2, ![100000, 512]⟩ .f32 :=
  G (m ((c : Thread nD τ).loc main_arg0)) (m ((c : Thread nD τ).loc main_arg4)) (m ((c : Thread nD τ).loc main_arg5))
    (m ((c : Thread nD τ).loc main_arg6)) (m ((c : Thread nD τ).loc main_arg7))

/-- WHAT POINT t WRITES BACK is tile t of `G`: in-tile row p is row 4000·t + p of the input through the row function. -/
theorem flushed_eq (c : Dev nD) (t : Fin cfg0.N) :
    (dats m 0 c).flushed 5 t = ((cfg0.win 5).blk t).view.read (Elt Ideal) (Gm m c) := by
  rw [Value.flushed5]
  unfold out0_5
  rw [View.canon_unit_zero hz]
  simp only [View.ld_unit_zero (S := S4000x512) hz, View.ld_unit_zero (S := S512x512) hz, View.ld_unit_zero (S := S1x512) hz]
  obtain ⟨-, -, -, -, -, -, -, -, -, -, e0, e1⟩ := idx_facts t
  funext j
  have hp : (j 0).val < 4000 := (j 0).isLt
  have hN : cfg0.N = 25 := N_0
  have ht : t.val < 25 := hN ▸ t.isLt
  show k0_pay1 (F := Ideal) (iblk m c 0 t) (iblk m c 1 t) (iblk m c 2 t) (iblk m c 3 t) (iblk m c 4 t) j
      = Gm m c (((cfg0.win 5).blk t).view.emb j)
  rw [eq_ix2 j]
  refine (Cert.KernelIdeal.Tile.pay_apply (iblk m c 0 t) (iblk m c 1 t) (iblk m c 2 t) (iblk m c 3 t) (iblk m c 4 t) (j 0) (j 1)).trans ?_
  have hn : t.val * 4000 + (j 0).val < 100000 := by omega
  refine Eq.trans ?_ (G_apply _ _ _ _ _ (((cfg0.win 5).blk t).view.emb (ix2 (j 0) (j 1))) ⟨t.val * 4000 + (j 0).val, hn⟩ (j 1)
    (by show win0_5.index t (0 : Fin 2) * 4000 + 1 * (j 0).val = t.val * 4000 + (j 0).val; omega)
    (by show win0_5.index t (1 : Fin 2) * 512 + 1 * (j 1).val = (j 1).val; omega)).symm
  exact row_congr (fun k => xblk_apply m c t (j 0) k ⟨t.val * 4000 + (j 0).val, hn⟩ rfl) (fun o k => wblk_apply m c t k o)
    (fun o => bblk_apply m c t o) (fun o => gblk_apply m c t o) (fun o => sblk_apply m c t o) (j 1)

/-- An index of the result is in point t's block iff its row is in tile t. -/
theorem mem_blk (t : Fin cfg0.N) (i : S100000x512.Idx) :
    i ∈ ((cfg0.win 5).blk t).view.set ↔ ∀ a : Fin 2, win0_5.index t a * S4000x512.size a ≤ (i a).val
      ∧ (i a).val < win0_5.index t a * S4000x512.size a + S4000x512.size a := by
  show i ∈ ((View.whole main_v5).slice (win0_5.rect t)).set ↔ _
  rw [View.set_slice_whole, Rect.mem_set_unit]
  exact Iff.rfl

/-- Every index of the result is written back by some point: row r by point r / 4000. -/
theorem cover (i : S100000x512.Idx) :
    ∃ t : Fin cfg0.N, (cfg0.win 5).flush t = true ∧ i ∈ ((cfg0.win 5).blk t).view.set := by
  have hi0 : (i 0).val < 100000 := (i 0).isLt
  have hi1 : (i 1).val < 512 := (i 1).isLt
  have hN : cfg0.N = 25 := N_0
  have ht : (i 0).val / 4000 < cfg0.N := by rw [hN]; omega
  obtain ⟨-, -, -, -, -, -, -, -, -, -, e0, e1⟩ := idx_facts ⟨(i 0).val / 4000, ht⟩
  refine ⟨⟨(i 0).val / 4000, ht⟩, flush0_5 _, ?_⟩
  rw [mem_blk]
  intro a
  match a with
  | ⟨0, _⟩ =>
    show win0_5.index ⟨(i 0).val / 4000, ht⟩ (0 : Fin 2) * 4000 ≤ (i 0).val
      ∧ (i 0).val < win0_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_5.index ⟨(i 0).val / 4000, ht⟩ (1 : Fin 2) * 512 ≤ (i 1).val
      ∧ (i 1).val < win0_5.index ⟨(i 0).val / 4000, ht⟩ (1 : Fin 2) * 512 + 512
    rw [e1]; omega

/-- THE ARRAY after the run is `G` of the argument arrays. -/
theorem final (c : Dev nD) : (dats m 0 c).arrAt 5 cfg0.N = Gm m c :=
  (dats m 0 c).arrAt_eq_of_cover 5 (Gm m c) (fun t _ => flushed_eq m c t) cover

/-- The kernel's run: the result array ends at `G` of the arguments, the arguments unchanged. -/
theorem run : θ_run defs (onTc (τ := τ) (main (F := Ideal))) ⟨m, fun _ => 0, ρ⟩ fun r => ∀ c : Dev nD,
      r.2.mem ((c : Thread nD τ).loc main_v5) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Blocks

end
-- ==== Proof.RefValue.lean ====
/-
  The reference's result is the row function of RowNorm, entry by entry.  Its stages are read one at a time at
  an index (n, o): the product against the weights' row o plus the bias is the pre-activation; the sum of a row
  over 512, the mean; the pre-activation less the mean, the centred row; the sum of its squares over 512, the
  variance; then the reciprocal square root, the gain, the shift and the rectifier.  A stage kept as a column
  (one entry per row) is read at its row alone.
-/
import proofs.«142499_j5342939316926_1_alg».proof.Proof.Gen.ReferenceIdeal.Read
import proofs.«142499_j5342939316926_1_alg».proof.Proof.RowNorm

noncomputable section

namespace Cert.ReferenceIdeal.RefValue

open Cert.ReferenceIdeal Cert.ReferenceIdeal.Read Idealize.ShloMosaic Idealize.ShloMosaic.ValueIdx Cert.RowNorm

variable (x0 : (⟨S100000x512, .f32⟩ : BufTy).Contents (Elt Ideal)) (x4 : (⟨S512x512, .f32⟩ : BufTy).Contents (Elt Ideal))
  (x5 x6 x7 : (⟨S512, .f32⟩ : BufTy).Contents (Elt Ideal))

/-- Row n of pre-activations. -/
abbrev pre (n : Fin 100000) : Fin 512 → EReal :=
  preact (fun k => x0 (ix2 n k)) (fun o k => x4 (ix2 o k)) (fun o => x5 (ix1 o))

/-- An index of a rank-2 array is its two coordinates. -/
theorem idx2_eq {n0 n1 : Nat} (i : (⟨2, ![n0, n1]⟩ : Shape).Idx) (a : Fin n0) (b : Fin n1)
    (h0 : (i 0).val = a.val) (h1 : (i 1).val = b.val) : i = ix2 a b := by
  funext d; apply Fin.ext
  match d with
  | ⟨0, _⟩ => exact h0
  | ⟨1, _⟩ => exact h1

/-- An index of a rank-1 array is its coordinate. -/
theorem idx1_eq {n0 : Nat} (i : (⟨1, ![n0]⟩ : Shape).Idx) (a : Fin n0) (h0 : (i 0).val = a.val) : i = ix1 a := by
  funext d; apply Fin.ext
  match d with
  | ⟨0, _⟩ => exact h0

/-- The dense layer at (n, o). -/
theorem dense_at (i : S100000x512.Idx) (n : Fin 100000) (o : Fin 512) (h0 : (i 0).val = n.val) (h1 : (i 1).val = o.val) :
    val_main_v3 (F := Ideal) x0 x4 x5 i = pre x0 x4 x5 n o := by
  rw [val_main_v3_apply, val_main_v0_apply, val_main_v2_apply, val_main_v1_apply]
  refine congrArg₂ (· + ·) (Finset.sum_congr rfl fun k _ => congrArg₂ (· * ·) (congrArg x0 ?_) (congrArg x4 ?_)) (congrArg x5 ?_)
  · exact idx2_eq _ n k h0 rfl
  · exact idx2_eq _ o k h1 rfl
  · exact idx1_eq _ o h1

/-- The sum of row n of pre-activations. -/
theorem rowsum_at (j : S100000.Idx) (n : Fin 100000) (h : (j 0).val = n.val) :
    val_main_v4 (F := Ideal) x0 x4 x5 j = ∑ k : Fin 512, pre x0 x4 x5 n k := by
  rw [val_main_v4_apply, val_main_cst_apply]
  refine (congrArg₂ (· + ·) Ideal.ofBits_zero_f32 (Finset.sum_congr rfl fun k _ => dense_at x0 x4 x5 _ n k h rfl)).trans ?_
  exact zero_add _

/-- The mean of row n. -/
theorem mean_at (j : S100000x1.Idx) (n : Fin 100000) (h : (j 0).val = n.val) :
    val_main_v7 (F := Ideal) x0 x4 x5 j = mean (pre x0 x4 x5 n) := by
  rw [val_main_v7_apply, val_main_v5_apply, val_main_v6_apply, val_main_cst_0_apply, rowsum_at x0 x4 x5 _ n h]
  rfl

/-- The centred row at (n, o), as the variance reads it … -/
theorem centred_at (i : S100000x512.Idx) (n : Fin 100000) (o : Fin 512) (h0 : (i 0).val = n.val) (h1 : (i 1).val = o.val) :
    val_main_v9 (F := Ideal) x0 x4 x5 i = centred (pre x0 x4 x5 n) o := by
  rw [val_main_v9_apply, val_main_v8_apply, dense_at x0 x4 x5 i n o h0 h1, mean_at x0 x4 x5 _ n h0]
  rfl

/-- … and as the normalisation reads it: the same subtraction, printed a second time. -/
theorem centred_at' (i : S100000x512.Idx) (n : Fin 100000) (o : Fin 512) (h0 : (i 0).val = n.val) (h1 : (i 1).val = o.val) :
    val_main_v16 (F := Ideal) x0 x4 x5 i = centred (pre x0 x4 x5 n) o := by
  rw [val_main_v16_apply, val_main_v15_apply, dense_at x0 x4 x5 i n o h0 h1, mean_at x0 x4 x5 _ n h0]
  rfl

/-- The sum of the squares of the centred row n. -/
theorem sqsum_at (j : S100000.Idx) (n : Fin 100000) (h : (j 0).val = n.val) :
    val_main_v11 (F := Ideal) x0 x4 x5 j = ∑ k : Fin 512, centred (pre x0 x4 x5 n) k * centred (pre x0 x4 x5 n) k := by
  rw [val_main_v11_apply, val_main_cst_1_apply]
  refine (congrArg₂ (· + ·) Ideal.ofBits_zero_f32 (Finset.sum_congr rfl fun k _ => ?_)).trans (zero_add _)
  rw [val_main_v10_apply, centred_at x0 x4 x5 _ n k h rfl]
  rfl

/-- The variance of row n. -/
theorem variance_at (j : S100000x1.Idx) (n : Fin 100000) (h : (j 0).val = n.val) :
    val_main_v14 (F := Ideal) x0 x4 x5 j = variance (pre x0 x4 x5 n) := by
  rw [val_main_v14_apply, val_main_v12_apply, val_main_v13_apply, val_main_cst_2_apply, sqsum_at x0 x4 x5 _ n h]
  rfl

/-- The normalised row, scaled and shifted, at (n, o). -/
theorem affine_at (i : S100000x512.Idx) (n : Fin 100000) (o : Fin 512) (h0 : (i 0).val = n.val) (h1 : (i 1).val = o.val) :
    val_main_v27 (F := Ideal) x0 x4 x5 x6 x7 i
      = affine (pre x0 x4 x5 n) (fun o => x6 (ix1 o)) (fun o => x7 (ix1 o)) o := by
  rw [val_main_v27_apply, val_main_v24_apply, val_main_v21_apply, centred_at' x0 x4 x5 i n o h0 h1,
    val_main_v20_apply, val_main_v19_apply, val_main_v18_apply, variance_at x0 x4 x5 _ n h0,
    val_main_v17_apply, val_main_cst_3_apply,
    val_main_v23_apply, val_main_v22_apply, val_main_v26_apply, val_main_v25_apply]
  rw [idx1_eq (idx_main_v22 (idx_main_v23 i)) o h1, idx1_eq (idx_main_v25 (idx_main_v26 i)) o h1]
  rfl

/-- THE REFERENCE: its result is `G` of its arguments. -/
theorem result_eq : val_main_v32 (F := Ideal) x0 x4 x5 x6 x7 = G x0 x4 x5 x6 x7 := by
  funext i
  rw [G_apply x0 x4 x5 x6 x7 i (i 0) (i 1) rfl rfl]
  rw [val_main_v32_apply, val_main_v29_apply, val_main_v31_apply, affine_at x0 x4 x5 x6 x7 i (i 0) (i 1) rfl rfl,
    val_main_v28_apply, val_main_cst_4_apply, val_main_v30_apply, val_main_cst_5_apply]
  rfl

end Cert.ReferenceIdeal.RefValue

end
-- ==== Proof.lean ====
/-
  A dense layer (input rows against the weights, plus a bias), a normalisation of each row to mean zero and unit
  variance with a gain and a shift, and a leaky rectifier, over 100000 rows of 512: the kernel computes it tile by
  tile of 4000 rows, the reference on the whole array.  Over the extended reals both are the SAME row function
  (Proof/RowNorm.lean), operation for operation and word for word: every row of the result depends on that row of
  the input alone, so the tiling is invisible; the kernel's product against the transposed weights in a narrower
  float format is the reference's product against the weights (a change of format is the identity, and a transpose
  exchanges the two coordinates); the kernel's sums along the lanes are the reference's sums over the last axis.
  No law of the arithmetic is needed beyond reading both sides at an index, so the finiteness of the inputs is
  never used.

    Proof/RowNorm.lean     the row function and the whole result `G`
    Proof/TileValue.lean   what the body stores for one tile is the row function at each of its rows
    Proof/BlockValue.lean  the 25 tiles are the tiles of `G`, and they cover the result
    Proof/RefValue.lean    the reference's result is `G`
  The three frames are the generated ones (the reference's is its run with the result dropped); the kernel and its
  idealization are one text read at two instances, so the preservation claim has nothing to say.
-/
import proofs.«142499_j5342939316926_1_alg».proof.Defs
import proofs.«142499_j5342939316926_1_alg».proof.Proof.Gen.Kernel
import proofs.«142499_j5342939316926_1_alg».proof.Proof.Gen.Kernel.Frame
import proofs.«142499_j5342939316926_1_alg».proof.Proof.Gen.KernelIdeal
import proofs.«142499_j5342939316926_1_alg».proof.Proof.Gen.KernelIdeal.Frame
import proofs.«142499_j5342939316926_1_alg».proof.Proof.Gen.KernelIdeal.Value
import proofs.«142499_j5342939316926_1_alg».proof.Proof.Gen.ReferenceIdeal
import proofs.«142499_j5342939316926_1_alg».proof.Proof.Gen.ReferenceIdeal.Run
import proofs.«142499_j5342939316926_1_alg».proof.Proof.Gen.ReferenceIdeal.Read
import proofs.«142499_j5342939316926_1_alg».proof.Proof.Gen.Pre_finite_inputs
import proofs.«142499_j5342939316926_1_alg».proof.Proof.BlockValue
import proofs.«142499_j5342939316926_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `G` of the arguments:
    the kernel tile by tile, the reference stage by stage. -/
theorem algebraic : Cert.algebraic_KernelIdeal_ReferenceIdeal := by
  intro m ρ m' ρ' _ hagree
  refine ⟨fun c => Cert.KernelIdeal.Blocks.Gm m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.result_eq]
  obtain ⟨h0, -, -, -, h4, h5, h6, h7⟩ := hagree c
  rw [h0, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
